-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S50000x32 : Shape := ⟨2, ![50000, 32]⟩
abbrev S800000x128 : Shape := ⟨2, ![800000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S800000x128 : S_.BroadcastsInDim S800000x128 (![] : Fin 0 → Fin S800000x128.rank)
  reducesTo_S800000x128_S_d0_1 : S800000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S2x800000 32) (main_v33 : IVec S_ 1) : IVec S_ 1 :=
  let main_v34 : IVec S1x800000 32 := (extractStridedSlice S1x800000 ![0, 0] · slices_S2x800000_S1x800000_0_0) main_arg7
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_c_13 : IVec S_ 1 := constantI S_ 1 1#1
  let main_v38 : IVec S_ 1 := (fun x v => Host.reduce IntOp.andi x v reducesTo_S800000_S_d0 h_S_) main_v37 main_c_13
  let main_v39 : IVec S_ 1 := andi main_v33 main_v38
  main_v39

def fn_part1 {F : FTy → Type} [FloatOps F] (main_arg4 : FVec F S256 .f32) (main_arg5 : FVec F S256x128 .f32) (main_arg6 : FVec F S128 .f32) (main_arg7 : IVec S2x800000 32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S50000x96 .f32) (main_arg1 : FVec F S50000x32 .f32) (main_arg2 : FVec F S800000x128 .f32) (main_arg3 : FVec F S128x256 .f32) (main_arg4 : FVec F S256 .f32) (main_arg5 : FVec F S256x128 .f32) (main_arg6 : FVec F S128 .f32) (main_arg7 : IVec S2x800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S800000x128 .f32 := Host.absf main_arg2
  let main_cst_2 : FVec F S_ .f32 := constant S_ .f32 0x7F800000#32
  let main_v10 : FVec F S800000x128 .f32 := broadcastInDim S800000x128 ![] bcast_S_S800000x128 main_cst_2
  let main_v11 : IVec S800000x128 1 := cmpf .olt main_v9 main_v10
  let main_c_3 : IVec S_ 1 := constantI S_ 1 1#1
  let main_v12 : IVec S_ 1 := (fun x v => Host.reduce IntOp.andi x v reducesTo_S800000x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_v13 main_v16
-- ==== Kernel.lean ====
abbrev S50000x96 : Shape := ⟨2, ![50000, 96]⟩
abbrev S50000x32 : Shape := ⟨2, ![50000, 32]⟩
abbrev S800000x128 : Shape := ⟨2, ![800000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S50000x128 : Shape := ⟨2, ![50000, 128]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S5000x128 : Shape := ⟨2, ![5000, 128]⟩
abbrev S5000x256 : Shape := ⟨2, ![5000, 256]⟩
abbrev S1x256 : Shape := ⟨2, ![1, 256]⟩
abbrev S1x128 : Shape := ⟨2, ![1, 128]⟩

abbrev nBuf : Space → Nat
  | .hbm => 26
  | .vmem => 10
  | .smem => 0
  | _ => 0

abbrev bufTy : (tb : Table) → Fin (tcTables nBuf tb) → BufTy
  | .hbm, ⟨0, _⟩ => ⟨S50000x96, .f32⟩
  | .hbm, ⟨1, _⟩ => ⟨S50000x32, .f32⟩
  | .hbm, ⟨2, _⟩ => ⟨S800000x128, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S2x800000, .i32⟩
  | .hbm, ⟨8, _⟩ => ⟨S50000x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x128, .f32⟩
  | .hbm, ⟨16, _⟩ => ⟨S_, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S128x256, .bf16⟩
  | .hbm, ⟨24, _⟩ => ⟨S256x128, .bf16⟩
  | .hbm, ⟨25, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .bf16⟩
  | .local _ .vmem, ⟨5, _⟩ => ⟨S256, .f32⟩
  | .local _ .vmem, ⟨6, _⟩ => ⟨S256x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S50000x96_S50000x32_S50000x128_d1 : Shape.Concatenates [S50000x96, S50000x32] S50000x128 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x96 : Shape := ⟨2, ![50000, 96]⟩
abbrev S50000x32 : Shape := ⟨2, ![50000, 32]⟩
abbrev S800000x128 : Shape := ⟨2, ![800000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S50000x128 : Shape := ⟨2, ![50000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S50000x32, .f32⟩
  | .hbm, ⟨2, _⟩ => ⟨S800000x128, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S2x800000, .i32⟩
  | .hbm, ⟨8, _⟩ => ⟨S50000x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S50000x256, .f32⟩
  | .hbm, ⟨35, _⟩ => ⟨S1x256, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  concatenates_S50000x96_S50000x32_S50000x128_d1 : Shape.Concatenates [S50000x96, S50000x32] S50000x128 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.SourceIds.lean ====
/-
  The source node ids are the first row of the edge list.  The reference reads the node table with
  numpy's indexing rule: an id below zero is first moved up by the number of nodes (50000) and only then used
  as a row number; the kernel's side takes the id as it is.  The precondition says no source id is negative, so
  the reference's moved-up ids are the ids themselves, entry by entry, and both programs index the node table
  by one and the same array of row numbers.
-/
import proofs.«419263_j61005715472600_2_alg».proof.Defs
import proofs.«419263_j61005715472600_2_alg».proof.Proof.Gen.Pre_finite_inputs
import proofs.«419263_j61005715472600_2_alg».proof.Proof.Gen.ReferenceIdeal.Read
import Idealize.ShloMosaic.Lib.ReduceAll
import Idealize.ShloMosaic.Lib.Affine
import Idealize.ShloMosaic.Lib.ValueIdx

noncomputable section

namespace Cert.SourceIds

open Idealize.ShloMosaic Idealize.ShloMosaic.ValueIdx
open Cert.ReferenceIdeal Cert.ReferenceIdeal.Read

variable {F : FTy → Type} [FloatOps F]

instance : Subsingleton Cert.Pre_finite_inputs.S_.Idx := ⟨fun a b => funext fun d => d.elim0⟩

/-- The precondition's last conjunct, read at one edge: the edge's source id, as a signed word, is at least zero.
    (The source ids are the first row of the edge list, flattened.) -/
theorem source_id_nonneg
    (a0 : FVec F Cert.Pre_finite_inputs.S50000x96 .f32) (a1 : FVec F Cert.Pre_finite_inputs.S50000x32 .f32)
    (a2 : FVec F Cert.Pre_finite_inputs.S800000x128 .f32) (a3 : FVec F Cert.Pre_finite_inputs.S128x256 .f32)
    (a4 : FVec F Cert.Pre_finite_inputs.S256 .f32) (a5 : FVec F Cert.Pre_finite_inputs.S256x128 .f32)
    (a6 : FVec F Cert.Pre_finite_inputs.S128 .f32) (a7 : IVec Cert.Pre_finite_inputs.S2x800000 32)
    (h : Cert.Pre_finite_inputs.fn (F := F) a0 a1 a2 a3 a4 a5 a6 a7 = fun _ => 1#1) (e : S800000.Idx) :
    0 ≤ (val_main_v2 (F := F) a7 e).toInt := by
  have h0 := congrFun h ix0
  dsimp only [Cert.Pre_finite_inputs.fn, Cert.Pre_finite_inputs.fn_part1, Cert.Pre_finite_inputs.fn_part2] at h0
  have h1 := (IntOp.andi_eq_one.mp h0).2
  have h2 := Host.reduce_andi_all _ _ _ _ _ h1 e
  have h3 := IntOp.cmpi_sge.mp h2
  exact h3

/-- So the reference's row numbers (a negative id moved up by the number of nodes, any other kept) are the source
    ids themselves. -/
theorem moved_ids_eq
    (a0 : FVec F Cert.Pre_finite_inputs.S50000x96 .f32) (a1 : FVec F Cert.Pre_finite_inputs.S50000x32 .f32)
    (a2 : FVec F Cert.Pre_finite_inputs.S800000x128 .f32) (a3 : FVec F Cert.Pre_finite_inputs.S128x256 .f32)
    (a4 : FVec F Cert.Pre_finite_inputs.S256 .f32) (a5 : FVec F Cert.Pre_finite_inputs.S256x128 .f32)
    (a6 : FVec F Cert.Pre_finite_inputs.S128 .f32) (a7 : IVec Cert.Pre_finite_inputs.S2x800000 32)
    (h : Cert.Pre_finite_inputs.fn (F := F) a0 a1 a2 a3 a4 a5 a6 a7 = fun _ => 1#1) :
    val_main_v9 (F := F) a7 = val_main_v2 (F := F) a7 := by
  funext e
  have hn := source_id_nonneg a0 a1 a2 a3 a4 a5 a6 a7 h e
  rw [val_main_v9_apply, val_main_v6_apply]
  have hz : val_main_v5 (F := F) e = 0#32 := by rw [val_main_v5_apply, val_main_c_apply]
  rw [hz]
  have hc : IntOp.cmpi .slt (val_main_v2 (F := F) a7 e) 0#32 ≠ 1#1 := by
    intro hlt
    have := IntOp.cmpi_slt.mp hlt
    have z : (0#32 : BitVec 32).toInt = 0 := by decide
    omega
  unfold Scalar.select
  exact if_neg hc

end Cert.SourceIds

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.MlpBlock.lean ====
/-
  One row of the update network, and the kernel's block entry by entry.

  For a row z of 128 numbers the network gives, at output column j,
      sum over k < 256 of  max (sum over l < 128 of z l * W1 (l, k) + b1 k, 0) * W2 (k, j)   +  b2 j.
  The kernel's body works on a block of 5000 rows: it adds the node-feature block and the aggregate block, multiplies by
  W1 into a zero accumulator, adds the bias row, takes the maximum with zero, multiplies by W2 into a zero accumulator
  and adds the second bias row.  Over the extended reals the changes of float format are the identity and each matrix
  product into zero is the plain sum of products, so entry (p, q) of what the body stores is the network's value, at
  column q, on the row  l ↦ x0 (p, l) + x1 (p, l).
-/
import proofs.«419263_j61005715472600_2_alg».proof.Proof.Gen.KernelIdeal.Skeleton
import proofs.«419263_j61005715472600_2_alg».proof.Proof.LibPlainMatmul
import Idealize.ShloMosaic.Lib.Pipeline.Value
import Idealize.ShloMosaic.Lib.ValueIdx
import Idealize.ShloMosaic.PureOps.Ideal.Laws

noncomputable section

namespace Cert.Mlp

open Idealize.ShloMosaic Idealize.ShloMosaic.ValueIdx

/-- The network on one row `z`, at output column `j`. The zero under the maximum is kept as the float word both
    programs print. -/
def row (z : Fin 128 → EReal) (W1 : (⟨2, ![128, 256]⟩ : Shape).Idx → EReal) (b1 : (⟨1, ![256]⟩ : Shape).Idx → EReal)
    (W2 : (⟨2, ![256, 128]⟩ : Shape).Idx → EReal) (b2 : (⟨1, ![128]⟩ : Shape).Idx → EReal) (j : Fin 128) : EReal :=
  (∑ k : Fin 256, max ((∑ l : Fin 128, z l * W1 (ix2 l k)) + b1 (ix1 k)) (Ideal.ofBits .f32 0x00000000#32) * W2 (ix2 k j))
    + b2 (ix1 j)

/-- A bias vector of length n laid out as one row and repeated down m rows, read at (p, q), is its entry q. -/
theorem bias_row {α : Type} {m n : ℕ} (v : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (p : Fin m) (q : Fin n) :
    broadcastTo ⟨2, ![m, n]⟩ (shapeCast ⟨2, ![1, n]⟩ v h1) h2 (ix2 p q) = v (ix1 q) := by
  rw [broadcastTo_apply _ h2 (ix2 p q) (ix2 (0 : Fin 1) q) (fun a => by
    match a with
    | ⟨0, _⟩ => show (0 : ℕ) = if (1 : ℕ) = 1 then 0 else _; rw [if_pos rfl]
    | ⟨1, _⟩ =>
      show q.val = if n = 1 then 0 else q.val
      have := q.isLt
      split <;> omega)]
  exact shapeCast_apply v h1 (ix2 (0 : Fin 1) q) (ix1 q) (by
    rw [Shape.rowMajor_val_two, Shape.rowMajor_val_one]; show q.val = 0 * n + q.val; omega)

open Cert.KernelIdeal in
/-- The first product of the body at (p, k): the sum over l of the left block's (p, l) times the weight's (l, k). -/
theorem layer1_entry (z : FVec Ideal S5000x128 .bf16) (W : FVec Ideal S128x256 .bf16) (p : Fin 5000) (k : Fin 256) :
    matmul dot_S5000x128_S128x256_S5000x256_1_0_0_1_n_n none z W (constant S5000x256 .f32 0x00000000#32) (ix2 p k)
      = ∑ l : Fin 128, z (ix2 p l) * W (ix2 l k) :=
  Cert.PlainMatmul.apply none z W p k

open Cert.KernelIdeal in
/-- The second product of the body at (p, q): the sum over k of the hidden block's (p, k) times the weight's (k, q). -/
theorem layer2_entry (y : FVec Ideal S5000x256 .bf16) (W : FVec Ideal S256x128 .bf16) (p : Fin 5000) (q : Fin 128) :
    matmul dot_S5000x256_S256x128_S5000x128_1_0_0_1_n_n none y W (constant S5000x128 .f32 0x00000000#32) (ix2 p q)
      = ∑ k : Fin 256, y (ix2 p k) * W (ix2 k q) :=
  Cert.PlainMatmul.apply none y W p q

open Cert.KernelIdeal in
/-- Entry (p, q) of what the body stores is the network's value at column q on the row of sums x0 (p, ·) + x1 (p, ·). -/
theorem block_entry (x0 x1 : Vec Ideal S5000x128 .f32) (w1 : Vec Ideal S128x256 .bf16) (c1 : Vec Ideal S256 .f32)
    (w2 : Vec Ideal S256x128 .bf16) (c2 : Vec Ideal S128 .f32) (p : Fin 5000) (q : Fin 128) :
    Cert.KernelIdeal.Gen.k0_pay1 (F := Ideal) x0 x1 w1 c1 w2 c2 (ix2 p q)
      = row (fun l => x0 (ix2 p l) + x1 (ix2 p l)) w1 c1 w2 c2 q := by
  unfold Cert.KernelIdeal.Gen.k0_pay1
  rw [addf_apply, layer2_entry, bias_row]
  unfold row
  refine congrArg (· + c2 (ix1 q)) (Finset.sum_congr rfl fun k _ => ?_)
  rw [truncf_apply, maximumf_apply, addf_apply, layer1_entry, bias_row, broadcast_apply, shapeCast_self, shapeCast_self]
  simp only [shapeCast_self, truncf_apply, addf_apply, Ideal.ofBits_def]

end Cert.Mlp

end
-- ==== Proof.RefValue.lean ====
/-
  The reference's result, entry by entry, as the update network on a row.

  The reference forms  z = 1 * h + agg  for the whole node table at once (h the node features joined with the degree
  tags, agg the per-node sums of messages), multiplies by W1, adds the bias, takes the maximum with zero, multiplies by
  W2 and adds the second bias.  Read at entry (i, j) over the extended reals each product is a plain sum of products and
  the factor one drops out, so the entry is the network's value at column j on the row  l ↦ h (i, l) + agg (i, l).
-/
import proofs.«419263_j61005715472600_2_alg».proof.Proof.Gen.ReferenceIdeal.Read
import proofs.«419263_j61005715472600_2_alg».proof.Proof.MlpBlock

noncomputable section

namespace Cert.RefValue

open Idealize.ShloMosaic Idealize.ShloMosaic.ValueIdx
open Cert.ReferenceIdeal Cert.ReferenceIdeal.Read

/-- The float word of one is the number one. -/
theorem one_word : Ideal.ofBits .f32 0x3F800000#32 = 1 := by
  simp [Ideal.ofBits, Ideal.ieee, -EReal.coe_mul]; norm_num

/-- The second product reads the hidden layer at the output's row and the contraction coordinate, -/
theorem lidx25 (r : Fin 50000) (q : Fin 128) (k : Fin 256) : lidx_main_v25 (ix2 r q) k = ix2 r k :=
  funext fun a => Fin.ext (by match a with | ⟨0, _⟩ => rfl | ⟨1, _⟩ => rfl)
/-- and the second weight at the contraction coordinate and the output's column. -/
theorem ridx25 (r : Fin 50000) (q : Fin 128) (k : Fin 256) : ridx_main_v25 (ix2 r q) k = ix2 k q :=
  funext fun a => Fin.ext (by match a with | ⟨0, _⟩ => rfl | ⟨1, _⟩ => rfl)
/-- The first product reads z at the hidden entry's row and the contraction coordinate, -/
theorem lidx20 (r : Fin 50000) (k : Fin 256) (l : Fin 128) : lidx_main_v20 (ix2 r k) l = ix2 r l :=
  funext fun a => Fin.ext (by match a with | ⟨0, _⟩ => rfl | ⟨1, _⟩ => rfl)
/-- and the first weight at the contraction coordinate and the hidden entry's column. -/
theorem ridx20 (r : Fin 50000) (k : Fin 256) (l : Fin 128) : ridx_main_v20 (ix2 r k) l = ix2 l k :=
  funext fun a => Fin.ext (by match a with | ⟨0, _⟩ => rfl | ⟨1, _⟩ => rfl)
/-- The first bias, repeated down the rows, at hidden entry (r, k) is its entry k; -/
theorem bias1 (r : Fin 50000) (k : Fin 256) : idx_main_v21 (idx_main_v22 (ix2 r k)) = ix1 k :=
  funext fun a => Fin.ext (by match a with | ⟨0, _⟩ => rfl)
/-- the second, at output entry (r, q), its entry q. -/
theorem bias2 (r : Fin 50000) (q : Fin 128) : idx_main_v26 (idx_main_v27 (ix2 r q)) = ix1 q :=
  funext fun a => Fin.ext (by match a with | ⟨0, _⟩ => rfl)

/-- Entry (r, q) of the reference's result is the network, at column q, on the row of node r: features plus aggregated
    messages. -/
theorem result_entry (x0 : (⟨S50000x96, .f32⟩ : BufTy).Contents (Elt Ideal)) (x1 : (⟨S50000x32, .f32⟩ : BufTy).Contents (Elt Ideal))
    (x2 : (⟨S800000x128, .f32⟩ : BufTy).Contents (Elt Ideal)) (x3 : (⟨S128x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) (x7 : (⟨S2x800000, .i32⟩ : BufTy).Contents (Elt Ideal))
    (r : Fin 50000) (q : Fin 128) :
    val_main_v28 (F := Ideal) x0 x1 x2 x3 x4 x5 x6 x7 (ix2 r q)
      = Cert.Mlp.row (fun l => val_main_v0 (F := Ideal) x0 x1 (ix2 r l) + val_main_v16 (F := Ideal) x0 x1 x2 x7 (ix2 r l))
          x3 x4 x5 x6 q := by
  rw [val_main_v28_apply, val_main_v25_apply, val_main_v27_apply, val_main_v26_apply, bias2]
  unfold Cert.Mlp.row
  refine congrArg (· + x6 (ix1 q)) (Finset.sum_congr rfl fun k _ => ?_)
  rw [lidx25, ridx25, val_main_v24_apply, val_main_v23_apply, val_main_v20_apply, val_main_v22_apply, val_main_v21_apply, bias1,
    val_main_call1_v0_apply, val_main_call1_cst_apply]
  simp only [lidx20, ridx20, val_main_v19_apply, val_main_v18_apply, val_main_v17_apply, val_main_cst_1_apply,
    Ideal.ofBits_def, Ideal.addf_def, Ideal.mulf_def, Ideal.maximumf_def, one_word, one_mul]

end Cert.RefValue

end
-- ==== Proof.HostArrays.lean ====
/-
  The arrays the host part of the idealized kernel program hands to its one pallas_call, as functions of the arguments.

  The host joins the node features with the degree tags into the node table h [50000, 128], takes the two rows of the
  edge list (source ids, target ids), gathers h's rows at the source ids, adds the edge features, takes the maximum
  with zero, and adds each such message row into the row of its target id, starting from zeros: the aggregate
  agg [50000, 128].  The call's result will be the update network on every node's row of h + agg (`updated`).
-/
import proofs.«419263_j61005715472600_2_alg».proof.Proof.Gen.KernelIdeal.Value
import proofs.«419263_j61005715472600_2_alg».proof.Proof.MlpBlock
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.ValueIdx
open Idealize.ShloMosaic.Pipeline (Dat)

namespace Cert.KernelValue

open Cert.KernelIdeal Cert.KernelIdeal.Gen Cert.KernelIdeal.Value

/-! ## The host's arrays as functions of the arguments -/

/-- The node table: features joined with degree tags along the columns. -/
def nodes (x0 : FVec Ideal S50000x96 .f32) (x1 : FVec Ideal S50000x32 .f32) : FVec Ideal S50000x128 .f32 :=
  concatenate S50000x128 1 [⟨S50000x96, x0⟩, ⟨S50000x32, x1⟩] concatenates_S50000x96_S50000x32_S50000x128_d1

/-- The source ids: row 0 of the edge list. -/
def sourceIds (x7 : IVec S2x800000 32) : IVec S800000 32 :=
  shapeCast S800000 (extractStridedSlice S1x800000 ![0, 0] x7 slices_S2x800000_S1x800000_0_0) shapeCasts_S1x800000_S800000

/-- The target ids: row 1 of the edge list. -/
def targetIds (x7 : IVec S2x800000 32) : IVec S800000 32 :=
  shapeCast S800000 (extractStridedSlice S1x800000 ![1, 0] x7 slices_S2x800000_S1x800000_1_0) shapeCasts_S1x800000_S800000

/-- The messages: per edge, the source node's row plus the edge's features, negative entries replaced by zero. -/
def messages (x0 : FVec Ideal S50000x96 .f32) (x1 : FVec Ideal S50000x32 .f32) (x2 : FVec Ideal S800000x128 .f32)
    (ids : IVec S800000 32) : FVec Ideal S800000x128 .f32 :=
  maximumf (addf (Host.gather gather_S50000x128_S800000x1_S800000x128_1_0_n_n_0_1_1128 (nodes x0 x1)
      (broadcastInDim S800000x1 ![0] bcast_S800000_S800000x1_0 ids)) x2)
    (broadcastInDim S800000x128 ![] bcast_S_S800000x128 (constant S_ .f32 0x00000000#32))

/-- The aggregate: the messages summed into their target nodes' rows, from zeros. -/
def agg (x0 : FVec Ideal S50000x96 .f32) (x1 : FVec Ideal S50000x32 .f32) (x2 : FVec Ideal S800000x128 .f32)
    (x7 : IVec S2x800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (targetIds x7))
    (messages x0 x1 x2 (sourceIds x7))

/-- The result: at (r, q) the update network, at column q, on node r's row of h + agg. -/
def updated (x0 : FVec Ideal S50000x96 .f32) (x1 : FVec Ideal S50000x32 .f32) (x2 : FVec Ideal S800000x128 .f32)
    (x3 : FVec Ideal S128x256 .f32) (x4 : FVec Ideal S256 .f32) (x5 : FVec Ideal S256x128 .f32) (x6 : FVec Ideal S128 .f32)
    (x7 : IVec S2x800000 32) : FVec Ideal S50000x128 .f32 := fun i =>
  Cert.Mlp.row (fun l => nodes x0 x1 (ix2 (i 0 : Fin 50000) l) + agg x0 x1 x2 x7 (ix2 (i 0 : Fin 50000) l)) x3 x4 x5 x6
    (i 1 : Fin 128)

variable (m : (ℓ : Loc nD τ sig) → Buf (Elt Ideal) ℓ) (ρ : Dev nD → PrngReg)

/-- The region finds the node table in the array its first window stages. -/
theorem V_nodes (c : Dev nD) : (V m c main_v0 : FVec Ideal S50000x128 .f32)
    = nodes (m ((c : Thread nD τ).loc main_arg0)) (m ((c : Thread nD τ).loc main_arg1)) := by
  dsimp only [V]
  simp only [hostOps0, hostOps0_1, hostOps0_2, hostOps0_3, hostOps0_4, List.flatten_cons, List.flatten_nil, List.append_nil,
    List.cons_append, List.nil_append]
  after_results
  rfl

/-- The region finds the aggregate in the array its second window stages. -/
theorem V_agg (c : Dev nD) : (V m c main_v10 : FVec Ideal S50000x128 .f32)
    = agg (m ((c : Thread nD τ).loc main_arg0)) (m ((c : Thread nD τ).loc main_arg1)) (m ((c : Thread nD τ).loc main_arg2))
        (m ((c : Thread nD τ).loc main_arg7)) := by
  dsimp only [V]
  simp only [hostOps0, hostOps0_1, hostOps0_2, hostOps0_3, hostOps0_4, List.flatten_cons, List.flatten_nil, List.append_nil,
    List.cons_append, List.nil_append]
  after_results
  rfl

/-- The first weight in its narrower float format is, over the extended reals, the first weight. -/
theorem V_w1 (c : Dev nD) : (V m c main_v11 : FVec Ideal S128x256 .bf16) = (m ((c : Thread nD τ).loc main_arg3) : FVec Ideal S128x256 .f32) := by
  dsimp only [V]
  simp only [hostOps0, hostOps0_1, hostOps0_2, hostOps0_3, hostOps0_4, List.flatten_cons, List.flatten_nil, List.append_nil,
    List.cons_append, List.nil_append]
  after_results
  rfl

/-- Likewise the second weight. -/
theorem V_w2 (c : Dev nD) : (V m c main_v12 : FVec Ideal S256x128 .bf16) = (m ((c : Thread nD τ).loc main_arg5) : FVec Ideal S256x128 .f32) := by
  dsimp only [V]
  simp only [hostOps0, hostOps0_1, hostOps0_2, hostOps0_3, hostOps0_4, List.flatten_cons, List.flatten_nil, List.append_nil,
    List.cons_append, List.nil_append]
  after_results
  rfl

end Cert.KernelValue

end
-- ==== Proof.KernelBlocks.lean ====
/-
  The blocks the pallas_call's windows hand to the body at grid point t (of ten).

  The node table and the aggregate are cut into ten blocks of 5000 rows: at point t the body gets rows
  5000 t … 5000 t + 4999 of each.  The two weights and the two biases are single blocks: at every point the body
  gets the whole array (the weights in a narrower float format, which over the extended reals changes nothing).
-/
import proofs.«419263_j61005715472600_2_alg».proof.Proof.HostArrays

noncomputable section

open Idealize.ShloMosaic Idealize.ShloMosaic.TcCoe Idealize.SL.Sem Idealize.ShloMosaic.StableHlo
open Idealize.ShloMosaic.ValueIdx
open Idealize.ShloMosaic.Pipeline (Dat)

namespace Cert.KernelValue

open Cert.KernelIdeal Cert.KernelIdeal.Gen Cert.KernelIdeal.Value

variable (m : (ℓ : Loc nD τ sig) → Buf (Elt Ideal) ℓ) (ρ : Dev nD → PrngReg)

attribute [local irreducible] agg

/-! ## The windows' blocks at a grid point -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten grid points: the two row-blocked inputs and the output are at block row t,
    block column 0; the weights and biases are always at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of the node table's block at point t is row 5000 t + p of the node table. -/
theorem nodes_block (c : Dev nD) (t : Fin cfg0.N) (p : Fin 5000) (l : Fin 128) (r : Fin 50000) (hr : r.val = 5000 * t.val + p.val) :
    (iblk m c 0 t : Vec Ideal S5000x128 .f32) (ix2 p l)
      = nodes (m ((c : Thread nD τ).loc main_arg0)) (m ((c : Thread nD τ).loc main_arg1)) (ix2 r l) := by
  obtain ⟨e0, e1, -⟩ := idx_facts t
  unfold iblk
  rw [View.read_apply]
  show (V m c main_v0 : FVec Ideal S50000x128 .f32) _ = _
  rw [V_nodes]
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * l.val = l.val; omega

/-- Row p of point t's block of ANY array staged by the second window is the array's row 5000 t + p. -/
theorem rows_read1 (X : FVec Ideal S50000x128 .f32) (t : Fin cfg0.N) (p : Fin 5000) (l : Fin 128) (r : Fin 50000)
    (hr : r.val = 5000 * t.val + p.val) :
    ((cfg0.win 1).blk t).view.read (Elt Ideal) X (ix2 p l) = X (ix2 r l) := by
  obtain ⟨-, -, e0, e1, -⟩ := idx_facts t
  rw [View.read_apply]
  refine congrArg X (funext fun a => Fin.ext ?_)
  match a with
  | ⟨0, _⟩ => show win0_1.index t (0 : Fin 2) * 5000 + 1 * p.val = r.val; omega
  | ⟨1, _⟩ => show win0_1.index t (1 : Fin 2) * 128 + 1 * l.val = l.val; omega

/-- Row p of the aggregate's block at point t is row 5000 t + p of the aggregate. -/
theorem agg_block (c : Dev nD) (t : Fin cfg0.N) (p : Fin 5000) (l : Fin 128) (r : Fin 50000) (hr : r.val = 5000 * t.val + p.val) :
    (iblk m c 1 t : Vec Ideal S5000x128 .f32) (ix2 p l)
      = agg (m ((c : Thread nD τ).loc main_arg0)) (m ((c : Thread nD τ).loc main_arg1)) (m ((c : Thread nD τ).loc main_arg2)) (m ((c : Thread nD τ).loc main_arg7)) (ix2 r l) := by
  unfold iblk
  rw [show (V m c (Pipeline.arrRef spec0 1) : FVec Ideal S50000x128 .f32)
      = agg (m ((c : Thread nD τ).loc main_arg0)) (m ((c : Thread nD τ).loc main_arg1)) (m ((c : Thread nD τ).loc main_arg2)) (m ((c : Thread nD τ).loc main_arg7)) from V_agg m c]
  exact rows_read1 _ t p l r hr

/-- The first weight's block at every point is the first weight. -/
theorem w1_block (c : Dev nD) (t : Fin cfg0.N) :
    (iblk m c 2 t : Vec Ideal S128x256 .bf16) = ((m ((c : Thread nD τ).loc main_arg3)) : FVec Ideal S128x256 .f32) := by
  obtain ⟨-, -, -, -, e0, e1, -⟩ := idx_facts t
  funext y
  unfold iblk
  rw [View.read_apply]
  show (V m c main_v11 : FVec Ideal S128x256 .bf16) _ = _
  rw [V_w1]
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- The first bias's block at every point is the first bias. -/
theorem b1_block (c : Dev nD) (t : Fin cfg0.N) :
    (iblk m c 3 t : Vec Ideal S256 .f32) = ((m ((c : Thread nD τ).loc main_arg4)) : FVec Ideal S256 .f32) := by
  obtain ⟨-, -, -, -, -, -, e0, -⟩ := idx_facts t
  funext y
  unfold iblk
  rw [View.read_apply]
  show (V m c main_arg4 : FVec Ideal S256 .f32) _ = _
  rw [V_main_arg4]
  refine congrArg _ (funext fun a => Fin.ext ?_)
  match a with
  | ⟨0, _⟩ => show win0_3.index t (0 : Fin 1) * 256 + 1 * (y 0).val = (y 0).val; omega

/-- The second weight's block at every point is the second weight. -/
theorem w2_block (c : Dev nD) (t : Fin cfg0.N) :
    (iblk m c 4 t : Vec Ideal S256x128 .bf16) = ((m ((c : Thread nD τ).loc main_arg5)) : FVec Ideal S256x128 .f32) := by
  obtain ⟨-, -, -, -, -, -, -, e0, e1, -⟩ := idx_facts t
  funext y
  unfold iblk
  rw [View.read_apply]
  show (V m c main_v12 : FVec Ideal S256x128 .bf16) _ = _
  rw [V_w2]
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 128 + 1 * (y 1).val = (y 1).val; omega

/-- The second bias's block at every point is the second bias. -/
theorem b2_block (c : Dev nD) (t : Fin cfg0.N) :
    (iblk m c 5 t : Vec Ideal S128 .f32) = ((m ((c : Thread nD τ).loc main_arg6)) : FVec Ideal S128 .f32) := by
  obtain ⟨-, -, -, -, -, -, -, -, -, e0, -⟩ := idx_facts t
  funext y
  unfold iblk
  rw [View.read_apply]
  show (V m c main_arg6 : FVec Ideal S128 .f32) _ = _
  rw [V_main_arg6]
  refine congrArg _ (funext fun a => Fin.ext ?_)
  match a with
  | ⟨0, _⟩ => show win0_5.index t (0 : Fin 1) * 128 + 1 * (y 0).val = (y 0).val; omega

end Cert.KernelValue

end
-- ==== Proof.KernelResult.lean ====
/-
  What the idealized kernel program leaves in its result array.

  Grid point t runs the body on rows 5000 t … 5000 t + 4999 of the node table h and of the aggregate agg and on the
  whole weights and biases, and writes back rows 5000 t … 5000 t + 4999 of the result; by the body's arithmetic that is
  the update network on those rows of h + agg.  The ten row blocks tile the result array, so after the run entry (r, q)
  of the result is the network's value at column q on the row  l ↦ h (r, l) + agg (r, l).
-/
import proofs.«419263_j61005715472600_2_alg».proof.Proof.KernelBlocks

noncomputable section

open Idealize.ShloMosaic Idealize.ShloMosaic.TcCoe Idealize.SL.Sem Idealize.ShloMosaic.StableHlo
open Idealize.ShloMosaic.ValueIdx
open Idealize.ShloMosaic.Pipeline (Dat)

namespace Cert.KernelValue

open Cert.KernelIdeal Cert.KernelIdeal.Gen Cert.KernelIdeal.Value

variable (m : (ℓ : Loc nD τ sig) → Buf (Elt Ideal) ℓ) (ρ : Dev nD → PrngReg)

attribute [local irreducible] agg

/-! ## What a point writes back, and the array after the run -/

/-- Grid point t writes back rows 5000 t … 5000 t + 4999 of the result. -/
theorem flushed_eq (c : Dev nD) (t : Fin cfg0.N) :
    (dats m 0 c).flushed 6 t = ((cfg0.win 6).blk t).view.read (Elt Ideal) (updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨-, -, -, -, -, -, -, -, -, -, e0, e1⟩ := idx_facts t
  rw [flushed6]
  unfold out0_6
  rw [View.canon_unit_zero hz2]
  simp only [View.ld_unit_zero (S := S5000x128) hz2, View.ld_unit_zero (S := S128x256) hz2, View.ld_unit_zero (S := S256) hz1,
    View.ld_unit_zero (S := S256x128) hz2, View.ld_unit_zero (S := S128) hz1]
  funext j
  obtain ⟨p, q, rfl⟩ : ∃ (p : Fin 5000) (q : Fin 128), j = ix2 p q := ⟨j 0, j 1, eq_ix2 j⟩
  have ht : t.val < 10 := t.isLt
  let r : Fin 50000 := ⟨5000 * t.val + p.val, by have := p.isLt; omega⟩
  have hemb : ((cfg0.win 6).blk t).view.emb (ix2 p q) = (ix2 r q : S50000x128.Idx) := funext fun a => Fin.ext (by
    match a with
    | ⟨0, _⟩ => show win0_6.index t (0 : Fin 2) * 5000 + 1 * p.val = 5000 * t.val + p.val; omega
    | ⟨1, _⟩ => show win0_6.index t (1 : Fin 2) * 128 + 1 * q.val = q.val; omega)
  show k0_pay1 (F := Ideal) (iblk m c 0 t) (iblk m c 1 t) (iblk m c 2 t) (iblk m c 3 t) (iblk m c 4 t) (iblk m c 5 t) (ix2 p q)
    = updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 6).blk t).view.emb (ix2 p q))
  rw [hemb, Cert.Mlp.block_entry, w1_block, b1_block, w2_block, b2_block]
  show _ = Cert.Mlp.row (fun l => nodes (m ((c : Thread nD τ).loc main_arg0)) (m ((c : Thread nD τ).loc main_arg1)) (ix2 r l) + agg (m ((c : Thread nD τ).loc main_arg0)) (m ((c : Thread nD τ).loc main_arg1)) (m ((c : Thread nD τ).loc main_arg2)) (m ((c : Thread nD τ).loc main_arg7)) (ix2 r l)) (m ((c : Thread nD τ).loc main_arg3)) (m ((c : Thread nD τ).loc main_arg4)) (m ((c : Thread nD τ).loc main_arg5)) (m ((c : Thread nD τ).loc main_arg6)) q
  refine congrArg (fun z => Cert.Mlp.row z (m ((c : Thread nD τ).loc main_arg3)) (m ((c : Thread nD τ).loc main_arg4)) (m ((c : Thread nD τ).loc main_arg5)) (m ((c : Thread nD τ).loc main_arg6)) q) (funext fun l => ?_)
  rw [nodes_block m c t p l r rfl, agg_block m c t p l r rfl]

/-- An entry of the result array is in point t's block iff its row is among the point's 5000 rows. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v13).slice (win0_6.rect t)).set ↔ _
  rw [View.set_slice_whole, Rect.mem_set_unit]
  exact Iff.rfl

/-- The ten row blocks cover the result array: row r is in the block of point r / 5000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 5000, by show (i 0).val / 5000 < 10; omega⟩
  have ht : t.val = (i 0).val / 5000 := rfl
  obtain ⟨-, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After the run the result array holds the update network on every node's row of h + agg. -/
theorem final (c : Dev nD) : (dats m 0 c).arrAt 6 cfg0.N = updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 6 (updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_eq m c t) cover

/-- The kernel program's run, read: the result array at `updated` of the arguments, the arguments unchanged. -/
theorem run : θ_run defs (onTc (τ := τ) (main (F := Ideal))) ⟨m, fun _ => 0, ρ⟩ fun r => ∀ c : Dev nD,
      r.2.mem ((c : Thread nD τ).loc main_v13) = updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelValue

end
-- ==== Proof.lean ====
/-
  The certificate's five claims for the graph-network layer: the three programs run and leave their arguments
  unchanged, the idealized kernel is the kernel's text read over the extended reals (nothing was rewritten), and the
  idealized kernel and the idealized reference end with equal results.

  Both programs form the node table h (features joined with degree tags), the messages
  max (h[source id] + edge features, 0), their sums agg over the edges' target ids, and then the update network
      out (r, q) = sum over k of max (sum over l of (h + agg) (r, l) * W1 (l, k) + b1 k, 0) * W2 (k, q) + b2 q.
  They differ in three places, none of which changes a value over the extended reals.  The kernel runs the network
  on ten blocks of 5000 rows, with the weights in a narrower float format (a change of format is the identity), each
  product into a zero accumulator (the plain sum of products); the ten row blocks tile the result.  The reference forms
  1 * h + agg, and one times a number is that number.  And the reference reads h's rows by numpy's rule, a negative
  id first moved up by the number of nodes, where the kernel's side uses the id as it is: under the precondition no
  source id is negative, so both read h through the same row numbers.  No step needs the inputs to be finite.
-/
import proofs.«419263_j61005715472600_2_alg».proof.Defs
import proofs.«419263_j61005715472600_2_alg».proof.Proof.Gen.Kernel
import proofs.«419263_j61005715472600_2_alg».proof.Proof.Gen.Kernel.Skeleton
import proofs.«419263_j61005715472600_2_alg».proof.Proof.Gen.Kernel.Launch
import proofs.«419263_j61005715472600_2_alg».proof.Proof.Gen.Kernel.Points
import proofs.«419263_j61005715472600_2_alg».proof.Proof.Gen.Kernel.Frame
import proofs.«419263_j61005715472600_2_alg».proof.Proof.Gen.KernelIdeal
import proofs.«419263_j61005715472600_2_alg».proof.Proof.Gen.KernelIdeal.Skeleton
import proofs.«419263_j61005715472600_2_alg».proof.Proof.Gen.KernelIdeal.Launch
import proofs.«419263_j61005715472600_2_alg».proof.Proof.Gen.KernelIdeal.Points
import proofs.«419263_j61005715472600_2_alg».proof.Proof.Gen.KernelIdeal.Frame
import proofs.«419263_j61005715472600_2_alg».proof.Proof.Gen.ReferenceIdeal
import proofs.«419263_j61005715472600_2_alg».proof.Proof.Gen.Pre_finite_inputs
import proofs.«419263_j61005715472600_2_alg».proof.Proof.Gen.KernelIdeal.Value
import proofs.«419263_j61005715472600_2_alg».proof.Proof.Gen.ReferenceIdeal.Run
import proofs.«419263_j61005715472600_2_alg».proof.Proof.Gen.ReferenceIdeal.Read
import proofs.«419263_j61005715472600_2_alg».proof.Proof.SourceIds
import proofs.«419263_j61005715472600_2_alg».proof.Proof.RefValue
import proofs.«419263_j61005715472600_2_alg».proof.Proof.KernelResult
import Idealize.ShloMosaic.Adequacy
import Idealize.ShloMosaic.Init

noncomputable section

namespace Cert.Proof

open Idealize.ShloMosaic Idealize.ShloMosaic.ValueIdx Idealize.SL.Sem

/-- With no negative source id, the reference's per-node sums of messages are the kernel side's: the reference's
    row numbers are the source ids, and from there the two are the same gather, sum with the edge features, maximum
    with zero and sum into the target rows. -/
theorem ref_agg_eq
    (x0 : FVec Ideal Cert.Pre_finite_inputs.S50000x96 .f32) (x1 : FVec Ideal Cert.Pre_finite_inputs.S50000x32 .f32)
    (x2 : FVec Ideal Cert.Pre_finite_inputs.S800000x128 .f32) (x3 : FVec Ideal Cert.Pre_finite_inputs.S128x256 .f32)
    (x4 : FVec Ideal Cert.Pre_finite_inputs.S256 .f32) (x5 : FVec Ideal Cert.Pre_finite_inputs.S256x128 .f32)
    (x6 : FVec Ideal Cert.Pre_finite_inputs.S128 .f32) (x7 : IVec Cert.Pre_finite_inputs.S2x800000 32)
    (h : Cert.Pre_finite_inputs.fn (F := Ideal) x0 x1 x2 x3 x4 x5 x6 x7 = fun _ => 1#1) :
    Cert.ReferenceIdeal.Read.val_main_v16 (F := Ideal) x0 x1 x2 x7 = Cert.KernelValue.agg x0 x1 x2 x7 := by
  unfold Cert.ReferenceIdeal.Read.val_main_v16 Cert.ReferenceIdeal.Read.val_main_v13 Cert.ReferenceIdeal.Read.val_main_v12
    Cert.ReferenceIdeal.Read.val_main_v11 Cert.ReferenceIdeal.Read.val_main_v10
  rw [Cert.SourceIds.moved_ids_eq x0 x1 x2 x3 x4 x5 x6 x7 h]
  rfl

/-- So the reference's result is the kernel's, entry by entry: the update network on each node's row of h + agg. -/
theorem ref_result_eq
    (x0 : FVec Ideal Cert.Pre_finite_inputs.S50000x96 .f32) (x1 : FVec Ideal Cert.Pre_finite_inputs.S50000x32 .f32)
    (x2 : FVec Ideal Cert.Pre_finite_inputs.S800000x128 .f32) (x3 : FVec Ideal Cert.Pre_finite_inputs.S128x256 .f32)
    (x4 : FVec Ideal Cert.Pre_finite_inputs.S256 .f32) (x5 : FVec Ideal Cert.Pre_finite_inputs.S256x128 .f32)
    (x6 : FVec Ideal Cert.Pre_finite_inputs.S128 .f32) (x7 : IVec Cert.Pre_finite_inputs.S2x800000 32)
    (h : Cert.Pre_finite_inputs.fn (F := Ideal) x0 x1 x2 x3 x4 x5 x6 x7 = fun _ => 1#1) :
    Cert.ReferenceIdeal.Read.val_main_v28 (F := Ideal) x0 x1 x2 x3 x4 x5 x6 x7
      = Cert.KernelValue.updated x0 x1 x2 x3 x4 x5 x6 x7 := by
  funext i
  obtain ⟨r, q, rfl⟩ : ∃ (r : Fin 50000) (q : Fin 128), i = ix2 r q := ⟨i 0, i 1, eq_ix2 i⟩
  rw [Cert.RefValue.result_entry, ref_agg_eq x0 x1 x2 x3 x4 x5 x6 x7 h]
  rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the update network on every node's row of h + agg, of arguments that agree. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact ref_result_eq _ _ _ _ _ _ _ _ (hpre c)

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
